-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S2048x512 : Shape := ⟨2, ![2048, 512]⟩
abbrev S1x512 : Shape := ⟨2, ![1, 512]⟩
abbrev S4096x1x2048 : Shape := ⟨3, ![4096, 1, 2048]⟩

abbrev nBuf : Space → Nat
  | .hbm => 33
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S4096x2048, .bf16⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x1x2048, .f32⟩
  | .hbm, ⟨32, _⟩ => ⟨S4096x1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .f32⟩
  | .local _ .vmem, ⟨5, _⟩ => ⟨S256x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  bcast_S4096x2048_S4096x1x2048_0_2 : S4096x2048.BroadcastsInDim S4096x1x2048 (![0, 2] : Fin 2 → Fin S4096x1x2048.rank)
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x2048.size a
  hwx0_2 : ∀ i : grid0.Coords, EltTy.bits .f32 = 32 ∨ (Rect.block (s := S4096x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x2048.size a
  hwx0_3 : ∀ i : grid0.Coords, EltTy.bits .bf16 = 32 ∨ (Rect.block (s := S2048x2048) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x2048.size a
  hwx0_4 : ∀ i : grid0.Coords, EltTy.bits .bf16 = 32 ∨ (Rect.block (s := S2048x2048) S2048x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x2048.size a
  hwx0_5 : ∀ i : grid0.Coords, EltTy.bits .bf16 = 32 ∨ (Rect.block (s := S2048x2048) S2048x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x2048.size a
  hwx0_6 : ∀ i : grid0.Coords, EltTy.bits .bf16 = 32 ∨ (Rect.block (s := S2048x2048) S2048x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x2048.size a
  hwx0_7 : ∀ i : grid0.Coords, EltTy.bits .bf16 = 32 ∨ (Rect.block (s := S2048x2048) S2048x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x2048.size a
  hwx0_8 : ∀ i : grid0.Coords, EltTy.bits .bf16 = 32 ∨ (Rect.block (s := S2048x2048) S2048x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x2048.size a
  hwx0_9 : ∀ i : grid0.Coords, EltTy.bits .bf16 = 32 ∨ (Rect.block (s := S2048x2048) S2048x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S2048x2048.size a
  hwx0_10 : ∀ i : grid0.Coords, EltTy.bits .bf16 = 32 ∨ (Rect.block (s := S2048x2048) S2048x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x2048.size a
  hwx0_11 : ∀ i : grid0.Coords, EltTy.bits .f32 = 32 ∨ (Rect.block (s := S1x2048) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x2048.size a
  hwx0_12 : ∀ i : grid0.Coords, EltTy.bits .f32 = 32 ∨ (Rect.block (s := S1x2048) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x2048.size a
  hwx0_13 : ∀ i : grid0.Coords, EltTy.bits .f32 = 32 ∨ (Rect.block (s := S1x2048) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x2048.size a
  hwx0_14 : ∀ i : grid0.Coords, EltTy.bits .f32 = 32 ∨ (Rect.block (s := S1x2048) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S4096x2048.size a
  hwx0_15 : ∀ i : grid0.Coords, EltTy.bits .f32 = 32 ∨ (Rect.block (s := S4096x2048) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S4096x2048.size a
  hwx0_16 : ∀ i : grid0.Coords, EltTy.bits .f32 = 32 ∨ (Rect.block (s := S4096x2048) S256x512.size (cc0_transform_16 i) (hinb0_16 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S2048x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩
abbrev S4096x1x2048 : Shape := ⟨3, ![4096, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x1x2048, .f32⟩
  | .hbm, ⟨59, _⟩ => ⟨S4096x1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x2048_S4096x1x2048_0_2 : S4096x2048.BroadcastsInDim S4096x1x2048 (![0, 2] : Fin 2 → Fin S4096x1x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellSpec.lean ====
/-
  One step of an LSTM cell over the extended reals, as a function of its fifteen argument arrays.

  For a batch row `r` and a hidden unit `j` each of the four gates has the pre-activation
      g(r, j) = (Σ_k x[r,k] · Wx[k,j] + Σ_k h[r,k] · Wh[k,j]) + b[j],
  with its own pair of weight matrices and its own bias, and the cell is
      c'(r, j) = c[r,j] · σ(g_f) + σ(g_i) · tanh(g_c),      h'(r, j) = σ(g_o) · tanh(c'(r, j)),
  where σ(t) = 1 / (1 + e^(-t)).  Both results are returned with a unit middle axis: [4096, 1, 2048].
  An element depends on ONE row of x and of h, ONE column of each weight matrix, and one entry of c and of each bias,
  so the scalar cell is stated over a row, eight columns and five scalars, and the array functions pick those out.
-/
import Idealize.ShloMosaic.PureOps.Ideal
import Idealize.ShloMosaic.Lib.ValueIdx

noncomputable section

namespace Cert.LstmCell

open Idealize.ShloMosaic Idealize.ShloMosaic.ValueIdx

/-- A gate's pre-activation from a row of x, a row of h, the gate's two weight columns and its bias entry. -/
def preact (xr hr wx wh : Fin 2048 → EReal) (b : EReal) : EReal :=
  (∑ k : Fin 2048, xr k * wx k + ∑ k : Fin 2048, hr k * wh k) + b

/-- The new cell state: the old one scaled by the forget gate plus the input gate times the candidate. -/
def cellC (xr hr : Fin 2048 → EReal) (c : EReal) (wxi wxf wxc whi whf whc : Fin 2048 → EReal) (bi bf bc : EReal) : EReal :=
  c * Ideal.logistic (preact xr hr wxf whf bf) + Ideal.logistic (preact xr hr wxi whi bi) * Ideal.tanh (preact xr hr wxc whc bc)

/-- The new hidden state: the output gate times tanh of the new cell state. -/
def cellH (xr hr : Fin 2048 → EReal) (c : EReal) (wxi wxf wxo wxc whi whf who whc : Fin 2048 → EReal) (bi bf bo bc : EReal) : EReal :=
  Ideal.logistic (preact xr hr wxo who bo) * Ideal.tanh (cellC xr hr c wxi wxf wxc whi whf whc bi bf bc)

abbrev SBatch : Shape := ⟨2, ![4096, 2048]⟩
abbrev SWeight : Shape := ⟨2, ![2048, 2048]⟩
abbrev SBias : Shape := ⟨1, ![2048]⟩
abbrev SOut : Shape := ⟨3, ![4096, 1, 2048]⟩

/-- The fifteen argument arrays, as extended reals. -/
structure Args where
  x : SBatch.Idx → EReal
  h : SBatch.Idx → EReal
  c : SBatch.Idx → EReal
  wxi : SWeight.Idx → EReal
  wxf : SWeight.Idx → EReal
  wxo : SWeight.Idx → EReal
  wxc : SWeight.Idx → EReal
  whi : SWeight.Idx → EReal
  whf : SWeight.Idx → EReal
  who : SWeight.Idx → EReal
  whc : SWeight.Idx → EReal
  bi : SBias.Idx → EReal
  bf : SBias.Idx → EReal
  bo : SBias.Idx → EReal
  bc : SBias.Idx → EReal

/-- Row `r` of a [4096, 2048] array. -/
def row (a : SBatch.Idx → EReal) (r : Fin 4096) : Fin 2048 → EReal := fun k => a (ix2 r k)
/-- Column `j` of a [2048, 2048] matrix. -/
def col (w : SWeight.Idx → EReal) (j : Fin 2048) : Fin 2048 → EReal := fun k => w (ix2 k j)

/-- c' at batch row `r`, hidden unit `j`. -/
def Args.newC (A : Args) (r : Fin 4096) (j : Fin 2048) : EReal :=
  cellC (row A.x r) (row A.h r) (A.c (ix2 r j)) (col A.wxi j) (col A.wxf j) (col A.wxc j) (col A.whi j) (col A.whf j) (col A.whc j)
    (A.bi (ix1 j)) (A.bf (ix1 j)) (A.bc (ix1 j))

/-- h' at batch row `r`, hidden unit `j`. -/
def Args.newH (A : Args) (r : Fin 4096) (j : Fin 2048) : EReal :=
  cellH (row A.x r) (row A.h r) (A.c (ix2 r j)) (col A.wxi j) (col A.wxf j) (col A.wxo j) (col A.wxc j) (col A.whi j) (col A.whf j)
    (col A.who j) (col A.whc j) (A.bi (ix1 j)) (A.bf (ix1 j)) (A.bo (ix1 j)) (A.bc (ix1 j))

/-- The two results as [4096, 2048] arrays … -/
def Args.arrC (A : Args) : SBatch.Idx → EReal := fun i => A.newC (i 0) (i 1)
def Args.arrH (A : Args) : SBatch.Idx → EReal := fun i => A.newH (i 0) (i 1)

/-- … and as returned, with the unit middle axis. -/
def Args.outC (A : Args) : SOut.Idx → EReal := fun i => A.newC (i 0) (i 2)
def Args.outH (A : Args) : SOut.Idx → EReal := fun i => A.newH (i 0) (i 2)

/-- The word 0x3F800000 is the real number one. -/
theorem one_word : Ideal.ofBits .f32 0x3F800000#32 = 1 := by
  simp [Ideal.ofBits, Ideal.ieee, -EReal.coe_mul]; norm_num

/-- σ spelt with a quotient, a sum with the word for one, an exponential and a negation is `Ideal.logistic`. -/
theorem logistic_spelt (t : EReal) :
    Ideal.div (Ideal.ofBits .f32 0x3F800000#32) (Ideal.ofBits .f32 0x3F800000#32 + Ideal.exp (-t)) = Ideal.logistic t := by
  rw [one_word]; rfl

end Cert.LstmCell

end
-- ==== Proof.KernelArrays.lean ====
/-
  The arrays the fused kernel's windows stage, and each window's block at a grid point, in terms of the arguments.

  Before the launch the host converts x, h and the eight weight matrices to bf16 — the identity at the exact values —
  and views each bias as a [1, 2048] row. The grid has 4 × 16 points; at a point with hidden block g and batch block b
  the body is given rows 256·b … 256·b + 255 of x and h (whole rows), the (256 × 512) block (b, g) of c, columns
  512·g … 512·g + 511 of every weight matrix (whole columns) and of every bias row, and writes block (b, g) of both results.
-/
import proofs.«145141_j20315195310597_1_alg».proof.Defs
import proofs.«145141_j20315195310597_1_alg».proof.Proof.Gen.KernelIdeal.Frame
import proofs.«145141_j20315195310597_1_alg».proof.Proof.CellSpec
import Idealize.ShloMosaic.Lib.Pipeline.Value
import Idealize.ShloMosaic.Lib.StableHlo.Run
import Idealize.ShloMosaic.Lib.ValueIdx

noncomputable section

namespace Cert.KernelIdeal.CellValue

open Idealize.ShloMosaic Idealize.ShloMosaic.TcCoe Idealize.SL.Sem Idealize.ShloMosaic.ValueIdx Idealize.ShloMosaic.StableHlo
open Cert.KernelIdeal Cert.KernelIdeal.Gen
open Cert.LstmCell (Args)

variable (m : (ℓ : Loc nD τ sig) → Buf (Elt Ideal) ℓ)

/-- The fifteen arguments as a device holds them at the launch. -/
def argsOf (c : Dev nD) : Args :=
  ⟨m ((c : Thread nD τ).loc main_arg0),
    m ((c : Thread nD τ).loc main_arg1),
    m ((c : Thread nD τ).loc main_arg2),
    m ((c : Thread nD τ).loc main_arg3),
    m ((c : Thread nD τ).loc main_arg4),
    m ((c : Thread nD τ).loc main_arg5),
    m ((c : Thread nD τ).loc main_arg6),
    m ((c : Thread nD τ).loc main_arg7),
    m ((c : Thread nD τ).loc main_arg8),
    m ((c : Thread nD τ).loc main_arg9),
    m ((c : Thread nD τ).loc main_arg10),
    m ((c : Thread nD τ).loc main_arg11),
    m ((c : Thread nD τ).loc main_arg12),
    m ((c : Thread nD τ).loc main_arg13),
    m ((c : Thread nD τ).loc main_arg14)⟩

/-! ## What the region finds in the arrays the host wrote -/

/-- The conversion of argument 0 to bf16 keeps every entry. -/
theorem entry_v0 (c : Dev nD) : (V m c main_v0 : S4096x2048.Idx → EReal) = m ((c : Thread nD τ).loc main_arg0) := by
  show StableHlo.after hostOps0 (fun b => m (c, b)) (Proc.devRef .tc main_v0) = _
  after_results
  rfl

/-- The conversion of argument 1 to bf16 keeps every entry. -/
theorem entry_v1 (c : Dev nD) : (V m c main_v1 : S4096x2048.Idx → EReal) = m ((c : Thread nD τ).loc main_arg1) := by
  show StableHlo.after hostOps0 (fun b => m (c, b)) (Proc.devRef .tc main_v1) = _
  after_results
  rfl

/-- The conversion of argument 3 to bf16 keeps every entry. -/
theorem entry_v2 (c : Dev nD) : (V m c main_v2 : S2048x2048.Idx → EReal) = m ((c : Thread nD τ).loc main_arg3) := by
  show StableHlo.after hostOps0 (fun b => m (c, b)) (Proc.devRef .tc main_v2) = _
  after_results
  rfl

/-- The conversion of argument 4 to bf16 keeps every entry. -/
theorem entry_v3 (c : Dev nD) : (V m c main_v3 : S2048x2048.Idx → EReal) = m ((c : Thread nD τ).loc main_arg4) := by
  show StableHlo.after hostOps0 (fun b => m (c, b)) (Proc.devRef .tc main_v3) = _
  after_results
  rfl

/-- The conversion of argument 5 to bf16 keeps every entry. -/
theorem entry_v4 (c : Dev nD) : (V m c main_v4 : S2048x2048.Idx → EReal) = m ((c : Thread nD τ).loc main_arg5) := by
  show StableHlo.after hostOps0 (fun b => m (c, b)) (Proc.devRef .tc main_v4) = _
  after_results
  rfl

/-- The conversion of argument 6 to bf16 keeps every entry. -/
theorem entry_v5 (c : Dev nD) : (V m c main_v5 : S2048x2048.Idx → EReal) = m ((c : Thread nD τ).loc main_arg6) := by
  show StableHlo.after hostOps0 (fun b => m (c, b)) (Proc.devRef .tc main_v5) = _
  after_results
  rfl

/-- The conversion of argument 7 to bf16 keeps every entry. -/
theorem entry_v6 (c : Dev nD) : (V m c main_v6 : S2048x2048.Idx → EReal) = m ((c : Thread nD τ).loc main_arg7) := by
  show StableHlo.after hostOps0 (fun b => m (c, b)) (Proc.devRef .tc main_v6) = _
  after_results
  rfl

/-- The conversion of argument 8 to bf16 keeps every entry. -/
theorem entry_v7 (c : Dev nD) : (V m c main_v7 : S2048x2048.Idx → EReal) = m ((c : Thread nD τ).loc main_arg8) := by
  show StableHlo.after hostOps0 (fun b => m (c, b)) (Proc.devRef .tc main_v7) = _
  after_results
  rfl

/-- The conversion of argument 9 to bf16 keeps every entry. -/
theorem entry_v8 (c : Dev nD) : (V m c main_v8 : S2048x2048.Idx → EReal) = m ((c : Thread nD τ).loc main_arg9) := by
  show StableHlo.after hostOps0 (fun b => m (c, b)) (Proc.devRef .tc main_v8) = _
  after_results
  rfl

/-- The conversion of argument 10 to bf16 keeps every entry. -/
theorem entry_v9 (c : Dev nD) : (V m c main_v9 : S2048x2048.Idx → EReal) = m ((c : Thread nD τ).loc main_arg10) := by
  show StableHlo.after hostOps0 (fun b => m (c, b)) (Proc.devRef .tc main_v9) = _
  after_results
  rfl

/-- Bias argument 11 viewed as one row: entry (0, j) of the row is entry j of the vector. -/
theorem entry_v10 (c : Dev nD) (j : Fin 2048) :
    (V m c main_v10 : S1x2048.Idx → EReal) (ix2 (0 : Fin 1) j) = m ((c : Thread nD τ).loc main_arg11) (ix1 j) := by
  show StableHlo.after hostOps0 (fun b => m (c, b)) (Proc.devRef .tc main_v10) _ = _
  after_results
  show shapeCast S1x2048 (m (c, Proc.devRef .tc main_arg11)) shapeCasts_S2048_S1x2048 (ix2 (0 : Fin 1) j) = _
  exact shapeCast_apply _ _ _ (ix1 j) (by rw [Shape.rowMajor_val_one, Shape.rowMajor_val_two]; show j.val = 0 * 2048 + j.val; omega)

/-- Bias argument 12 viewed as one row: entry (0, j) of the row is entry j of the vector. -/
theorem entry_v11 (c : Dev nD) (j : Fin 2048) :
    (V m c main_v11 : S1x2048.Idx → EReal) (ix2 (0 : Fin 1) j) = m ((c : Thread nD τ).loc main_arg12) (ix1 j) := by
  show StableHlo.after hostOps0 (fun b => m (c, b)) (Proc.devRef .tc main_v11) _ = _
  after_results
  show shapeCast S1x2048 (m (c, Proc.devRef .tc main_arg12)) shapeCasts_S2048_S1x2048 (ix2 (0 : Fin 1) j) = _
  exact shapeCast_apply _ _ _ (ix1 j) (by rw [Shape.rowMajor_val_one, Shape.rowMajor_val_two]; show j.val = 0 * 2048 + j.val; omega)

/-- Bias argument 13 viewed as one row: entry (0, j) of the row is entry j of the vector. -/
theorem entry_v12 (c : Dev nD) (j : Fin 2048) :
    (V m c main_v12 : S1x2048.Idx → EReal) (ix2 (0 : Fin 1) j) = m ((c : Thread nD τ).loc main_arg13) (ix1 j) := by
  show StableHlo.after hostOps0 (fun b => m (c, b)) (Proc.devRef .tc main_v12) _ = _
  after_results
  show shapeCast S1x2048 (m (c, Proc.devRef .tc main_arg13)) shapeCasts_S2048_S1x2048 (ix2 (0 : Fin 1) j) = _
  exact shapeCast_apply _ _ _ (ix1 j) (by rw [Shape.rowMajor_val_one, Shape.rowMajor_val_two]; show j.val = 0 * 2048 + j.val; omega)

/-- Bias argument 14 viewed as one row: entry (0, j) of the row is entry j of the vector. -/
theorem entry_v13 (c : Dev nD) (j : Fin 2048) :
    (V m c main_v13 : S1x2048.Idx → EReal) (ix2 (0 : Fin 1) j) = m ((c : Thread nD τ).loc main_arg14) (ix1 j) := by
  show StableHlo.after hostOps0 (fun b => m (c, b)) (Proc.devRef .tc main_v13) _ = _
  after_results
  show shapeCast S1x2048 (m (c, Proc.devRef .tc main_arg14)) shapeCasts_S2048_S1x2048 (ix2 (0 : Fin 1) j) = _
  exact shapeCast_apply _ _ _ (ix1 j) (by rw [Shape.rowMajor_val_one, Shape.rowMajor_val_two]; show j.val = 0 * 2048 + j.val; omega)

/-! ## Where each window's block sits, decided over the 64 grid points

Window 16 (the new cell state) has block index (batch block, hidden block); every other window's is stated against it. -/

theorem idx_w0 : ∀ t : Fin cfg0.N, win0_0.index t (0 : Fin 2) = win0_16.index t (0 : Fin 2) ∧ win0_0.index t (1 : Fin 2) = 0 :=
  (by decide +kernel : ∀ t : Fin grid0.N, _)
theorem idx_w1 : ∀ t : Fin cfg0.N, win0_1.index t (0 : Fin 2) = win0_16.index t (0 : Fin 2) ∧ win0_1.index t (1 : Fin 2) = 0 :=
  (by decide +kernel : ∀ t : Fin grid0.N, _)
theorem idx_w2 : ∀ t : Fin cfg0.N, win0_2.index t (0 : Fin 2) = win0_16.index t (0 : Fin 2) ∧ win0_2.index t (1 : Fin 2) = win0_16.index t (1 : Fin 2) :=
  (by decide +kernel : ∀ t : Fin grid0.N, _)
theorem idx_w15 : ∀ t : Fin cfg0.N, win0_15.index t (0 : Fin 2) = win0_16.index t (0 : Fin 2) ∧ win0_15.index t (1 : Fin 2) = win0_16.index t (1 : Fin 2) :=
  (by decide +kernel : ∀ t : Fin grid0.N, _)
theorem idx_w3 : ∀ t : Fin cfg0.N, win0_3.index t (0 : Fin 2) = 0 ∧ win0_3.index t (1 : Fin 2) = win0_16.index t (1 : Fin 2) :=
  (by decide +kernel : ∀ t : Fin grid0.N, _)
theorem idx_w4 : ∀ t : Fin cfg0.N, win0_4.index t (0 : Fin 2) = 0 ∧ win0_4.index t (1 : Fin 2) = win0_16.index t (1 : Fin 2) :=
  (by decide +kernel : ∀ t : Fin grid0.N, _)
theorem idx_w5 : ∀ t : Fin cfg0.N, win0_5.index t (0 : Fin 2) = 0 ∧ win0_5.index t (1 : Fin 2) = win0_16.index t (1 : Fin 2) :=
  (by decide +kernel : ∀ t : Fin grid0.N, _)
theorem idx_w6 : ∀ t : Fin cfg0.N, win0_6.index t (0 : Fin 2) = 0 ∧ win0_6.index t (1 : Fin 2) = win0_16.index t (1 : Fin 2) :=
  (by decide +kernel : ∀ t : Fin grid0.N, _)
theorem idx_w7 : ∀ t : Fin cfg0.N, win0_7.index t (0 : Fin 2) = 0 ∧ win0_7.index t (1 : Fin 2) = win0_16.index t (1 : Fin 2) :=
  (by decide +kernel : ∀ t : Fin grid0.N, _)
theorem idx_w8 : ∀ t : Fin cfg0.N, win0_8.index t (0 : Fin 2) = 0 ∧ win0_8.index t (1 : Fin 2) = win0_16.index t (1 : Fin 2) :=
  (by decide +kernel : ∀ t : Fin grid0.N, _)
theorem idx_w9 : ∀ t : Fin cfg0.N, win0_9.index t (0 : Fin 2) = 0 ∧ win0_9.index t (1 : Fin 2) = win0_16.index t (1 : Fin 2) :=
  (by decide +kernel : ∀ t : Fin grid0.N, _)
theorem idx_w10 : ∀ t : Fin cfg0.N, win0_10.index t (0 : Fin 2) = 0 ∧ win0_10.index t (1 : Fin 2) = win0_16.index t (1 : Fin 2) :=
  (by decide +kernel : ∀ t : Fin grid0.N, _)
theorem idx_w11 : ∀ t : Fin cfg0.N, win0_11.index t (0 : Fin 2) = 0 ∧ win0_11.index t (1 : Fin 2) = win0_16.index t (1 : Fin 2) :=
  (by decide +kernel : ∀ t : Fin grid0.N, _)
theorem idx_w12 : ∀ t : Fin cfg0.N, win0_12.index t (0 : Fin 2) = 0 ∧ win0_12.index t (1 : Fin 2) = win0_16.index t (1 : Fin 2) :=
  (by decide +kernel : ∀ t : Fin grid0.N, _)
theorem idx_w13 : ∀ t : Fin cfg0.N, win0_13.index t (0 : Fin 2) = 0 ∧ win0_13.index t (1 : Fin 2) = win0_16.index t (1 : Fin 2) :=
  (by decide +kernel : ∀ t : Fin grid0.N, _)
theorem idx_w14 : ∀ t : Fin cfg0.N, win0_14.index t (0 : Fin 2) = 0 ∧ win0_14.index t (1 : Fin 2) = win0_16.index t (1 : Fin 2) :=
  (by decide +kernel : ∀ t : Fin grid0.N, _)
/-- The block indices stay inside the 16 × 4 blocks of a [4096, 2048] array. -/
theorem idx_bounds : ∀ t : Fin cfg0.N, win0_16.index t (0 : Fin 2) ≤ 15 ∧ win0_16.index t (1 : Fin 2) ≤ 3 :=
  (by decide +kernel : ∀ t : Fin grid0.N, _)
/-- Every block is some point's. -/
theorem idx_onto : ∀ (b : Fin 16) (g : Fin 4), ∃ t : Fin cfg0.N, win0_16.index t = ![b.val, g.val] :=
  (by decide +kernel : ∀ (b : Fin 16) (g : Fin 4), ∃ t : Fin grid0.N, win0_16.index t = ![b.val, g.val])

/-! ## A window's block read at an element

`R` is the batch row and `J` the hidden unit the tile's element (p, q) stands for at point `t`. -/

/-- Row p of the x block is row R of the argument. -/
theorem blk0_at (c : Dev nD) (t : Fin cfg0.N) (p : Fin 256) (k : Fin 2048) (R : Fin 4096)
    (hR : R.val = win0_16.index t (0 : Fin 2) * 256 + p.val) :
    (iblk m c 0 t : Vec Ideal S256x2048 .bf16) (ix2 p k) = m ((c : Thread nD τ).loc main_arg0) (ix2 R k) := by
  obtain ⟨e0, e1⟩ := idx_w0 t
  show (V m c main_v0 : S4096x2048.Idx → EReal) (((cfg0.win 0).blk t).view.emb (ix2 p k)) = _
  rw [entry_v0]
  refine congrArg _ (funext fun a => Fin.ext ?_)
  match a with
  | ⟨0, _⟩ => show win0_0.index t (0 : Fin 2) * 256 + 1 * p.val = R.val; omega
  | ⟨1, _⟩ => show win0_0.index t (1 : Fin 2) * 2048 + 1 * k.val = k.val; omega

/-- Row p of the h block is row R of the argument. -/
theorem blk1_at (c : Dev nD) (t : Fin cfg0.N) (p : Fin 256) (k : Fin 2048) (R : Fin 4096)
    (hR : R.val = win0_16.index t (0 : Fin 2) * 256 + p.val) :
    (iblk m c 1 t : Vec Ideal S256x2048 .bf16) (ix2 p k) = m ((c : Thread nD τ).loc main_arg1) (ix2 R k) := by
  obtain ⟨e0, e1⟩ := idx_w1 t
  show (V m c main_v1 : S4096x2048.Idx → EReal) (((cfg0.win 1).blk t).view.emb (ix2 p k)) = _
  rw [entry_v1]
  refine congrArg _ (funext fun a => Fin.ext ?_)
  match a with
  | ⟨0, _⟩ => show win0_1.index t (0 : Fin 2) * 256 + 1 * p.val = R.val; omega
  | ⟨1, _⟩ => show win0_1.index t (1 : Fin 2) * 2048 + 1 * k.val = k.val; omega

/-- Element (p, q) of the c block is entry (R, J) of the argument. -/
theorem blk2_at (c : Dev nD) (t : Fin cfg0.N) (p : Fin 256) (q : Fin 512) (R : Fin 4096) (J : Fin 2048)
    (hR : R.val = win0_16.index t (0 : Fin 2) * 256 + p.val) (hJ : J.val = win0_16.index t (1 : Fin 2) * 512 + q.val) :
    (iblk m c 2 t : Vec Ideal S256x512 .f32) (ix2 p q) = m ((c : Thread nD τ).loc main_arg2) (ix2 R J) := by
  obtain ⟨e0, e1⟩ := idx_w2 t
  show (V m c main_arg2 : S4096x2048.Idx → EReal) (((cfg0.win 2).blk t).view.emb (ix2 p q)) = _
  rw [V_main_arg2]
  refine congrArg _ (funext fun a => Fin.ext ?_)
  match a with
  | ⟨0, _⟩ => show win0_2.index t (0 : Fin 2) * 256 + 1 * p.val = R.val; omega
  | ⟨1, _⟩ => show win0_2.index t (1 : Fin 2) * 512 + 1 * q.val = J.val; omega

/-- Column q of weight block 3 is column J of argument 3. -/
theorem blk3_at (c : Dev nD) (t : Fin cfg0.N) (k : Fin 2048) (q : Fin 512) (J : Fin 2048)
    (hJ : J.val = win0_16.index t (1 : Fin 2) * 512 + q.val) :
    (iblk m c 3 t : Vec Ideal S2048x512 .bf16) (ix2 k q) = m ((c : Thread nD τ).loc main_arg3) (ix2 k J) := by
  obtain ⟨e0, e1⟩ := idx_w3 t
  show (V m c main_v2 : S2048x2048.Idx → EReal) (((cfg0.win 3).blk t).view.emb (ix2 k q)) = _
  rw [entry_v2]
  refine congrArg _ (funext fun a => Fin.ext ?_)
  match a with
  | ⟨0, _⟩ => show win0_3.index t (0 : Fin 2) * 2048 + 1 * k.val = k.val; omega
  | ⟨1, _⟩ => show win0_3.index t (1 : Fin 2) * 512 + 1 * q.val = J.val; omega

/-- Column q of weight block 4 is column J of argument 4. -/
theorem blk4_at (c : Dev nD) (t : Fin cfg0.N) (k : Fin 2048) (q : Fin 512) (J : Fin 2048)
    (hJ : J.val = win0_16.index t (1 : Fin 2) * 512 + q.val) :
    (iblk m c 4 t : Vec Ideal S2048x512 .bf16) (ix2 k q) = m ((c : Thread nD τ).loc main_arg4) (ix2 k J) := by
  obtain ⟨e0, e1⟩ := idx_w4 t
  show (V m c main_v3 : S2048x2048.Idx → EReal) (((cfg0.win 4).blk t).view.emb (ix2 k q)) = _
  rw [entry_v3]
  refine congrArg _ (funext fun a => Fin.ext ?_)
  match a with
  | ⟨0, _⟩ => show win0_4.index t (0 : Fin 2) * 2048 + 1 * k.val = k.val; omega
  | ⟨1, _⟩ => show win0_4.index t (1 : Fin 2) * 512 + 1 * q.val = J.val; omega

/-- Column q of weight block 5 is column J of argument 5. -/
theorem blk5_at (c : Dev nD) (t : Fin cfg0.N) (k : Fin 2048) (q : Fin 512) (J : Fin 2048)
    (hJ : J.val = win0_16.index t (1 : Fin 2) * 512 + q.val) :
    (iblk m c 5 t : Vec Ideal S2048x512 .bf16) (ix2 k q) = m ((c : Thread nD τ).loc main_arg5) (ix2 k J) := by
  obtain ⟨e0, e1⟩ := idx_w5 t
  show (V m c main_v4 : S2048x2048.Idx → EReal) (((cfg0.win 5).blk t).view.emb (ix2 k q)) = _
  rw [entry_v4]
  refine congrArg _ (funext fun a => Fin.ext ?_)
  match a with
  | ⟨0, _⟩ => show win0_5.index t (0 : Fin 2) * 2048 + 1 * k.val = k.val; omega
  | ⟨1, _⟩ => show win0_5.index t (1 : Fin 2) * 512 + 1 * q.val = J.val; omega

/-- Column q of weight block 6 is column J of argument 6. -/
theorem blk6_at (c : Dev nD) (t : Fin cfg0.N) (k : Fin 2048) (q : Fin 512) (J : Fin 2048)
    (hJ : J.val = win0_16.index t (1 : Fin 2) * 512 + q.val) :
    (iblk m c 6 t : Vec Ideal S2048x512 .bf16) (ix2 k q) = m ((c : Thread nD τ).loc main_arg6) (ix2 k J) := by
  obtain ⟨e0, e1⟩ := idx_w6 t
  show (V m c main_v5 : S2048x2048.Idx → EReal) (((cfg0.win 6).blk t).view.emb (ix2 k q)) = _
  rw [entry_v5]
  refine congrArg _ (funext fun a => Fin.ext ?_)
  match a with
  | ⟨0, _⟩ => show win0_6.index t (0 : Fin 2) * 2048 + 1 * k.val = k.val; omega
  | ⟨1, _⟩ => show win0_6.index t (1 : Fin 2) * 512 + 1 * q.val = J.val; omega

/-- Column q of weight block 7 is column J of argument 7. -/
theorem blk7_at (c : Dev nD) (t : Fin cfg0.N) (k : Fin 2048) (q : Fin 512) (J : Fin 2048)
    (hJ : J.val = win0_16.index t (1 : Fin 2) * 512 + q.val) :
    (iblk m c 7 t : Vec Ideal S2048x512 .bf16) (ix2 k q) = m ((c : Thread nD τ).loc main_arg7) (ix2 k J) := by
  obtain ⟨e0, e1⟩ := idx_w7 t
  show (V m c main_v6 : S2048x2048.Idx → EReal) (((cfg0.win 7).blk t).view.emb (ix2 k q)) = _
  rw [entry_v6]
  refine congrArg _ (funext fun a => Fin.ext ?_)
  match a with
  | ⟨0, _⟩ => show win0_7.index t (0 : Fin 2) * 2048 + 1 * k.val = k.val; omega
  | ⟨1, _⟩ => show win0_7.index t (1 : Fin 2) * 512 + 1 * q.val = J.val; omega

/-- Column q of weight block 8 is column J of argument 8. -/
theorem blk8_at (c : Dev nD) (t : Fin cfg0.N) (k : Fin 2048) (q : Fin 512) (J : Fin 2048)
    (hJ : J.val = win0_16.index t (1 : Fin 2) * 512 + q.val) :
    (iblk m c 8 t : Vec Ideal S2048x512 .bf16) (ix2 k q) = m ((c : Thread nD τ).loc main_arg8) (ix2 k J) := by
  obtain ⟨e0, e1⟩ := idx_w8 t
  show (V m c main_v7 : S2048x2048.Idx → EReal) (((cfg0.win 8).blk t).view.emb (ix2 k q)) = _
  rw [entry_v7]
  refine congrArg _ (funext fun a => Fin.ext ?_)
  match a with
  | ⟨0, _⟩ => show win0_8.index t (0 : Fin 2) * 2048 + 1 * k.val = k.val; omega
  | ⟨1, _⟩ => show win0_8.index t (1 : Fin 2) * 512 + 1 * q.val = J.val; omega

/-- Column q of weight block 9 is column J of argument 9. -/
theorem blk9_at (c : Dev nD) (t : Fin cfg0.N) (k : Fin 2048) (q : Fin 512) (J : Fin 2048)
    (hJ : J.val = win0_16.index t (1 : Fin 2) * 512 + q.val) :
    (iblk m c 9 t : Vec Ideal S2048x512 .bf16) (ix2 k q) = m ((c : Thread nD τ).loc main_arg9) (ix2 k J) := by
  obtain ⟨e0, e1⟩ := idx_w9 t
  show (V m c main_v8 : S2048x2048.Idx → EReal) (((cfg0.win 9).blk t).view.emb (ix2 k q)) = _
  rw [entry_v8]
  refine congrArg _ (funext fun a => Fin.ext ?_)
  match a with
  | ⟨0, _⟩ => show win0_9.index t (0 : Fin 2) * 2048 + 1 * k.val = k.val; omega
  | ⟨1, _⟩ => show win0_9.index t (1 : Fin 2) * 512 + 1 * q.val = J.val; omega

/-- Column q of weight block 10 is column J of argument 10. -/
theorem blk10_at (c : Dev nD) (t : Fin cfg0.N) (k : Fin 2048) (q : Fin 512) (J : Fin 2048)
    (hJ : J.val = win0_16.index t (1 : Fin 2) * 512 + q.val) :
    (iblk m c 10 t : Vec Ideal S2048x512 .bf16) (ix2 k q) = m ((c : Thread nD τ).loc main_arg10) (ix2 k J) := by
  obtain ⟨e0, e1⟩ := idx_w10 t
  show (V m c main_v9 : S2048x2048.Idx → EReal) (((cfg0.win 10).blk t).view.emb (ix2 k q)) = _
  rw [entry_v9]
  refine congrArg _ (funext fun a => Fin.ext ?_)
  match a with
  | ⟨0, _⟩ => show win0_10.index t (0 : Fin 2) * 2048 + 1 * k.val = k.val; omega
  | ⟨1, _⟩ => show win0_10.index t (1 : Fin 2) * 512 + 1 * q.val = J.val; omega

/-- Entry q of bias block 11 is entry J of argument 11. -/
theorem blk11_at (c : Dev nD) (t : Fin cfg0.N) (q : Fin 512) (J : Fin 2048)
    (hJ : J.val = win0_16.index t (1 : Fin 2) * 512 + q.val) :
    (iblk m c 11 t : Vec Ideal S1x512 .f32) (ix2 (0 : Fin 1) q) = m ((c : Thread nD τ).loc main_arg11) (ix1 J) := by
  obtain ⟨e0, e1⟩ := idx_w11 t
  show (V m c main_v10 : S1x2048.Idx → EReal) (((cfg0.win 11).blk t).view.emb (ix2 (0 : Fin 1) q)) = _
  have e : ((cfg0.win 11).blk t).view.emb (ix2 (0 : Fin 1) q) = (ix2 (0 : Fin 1) J : S1x2048.Idx) := funext fun a => Fin.ext (by
    match a with
    | ⟨0, _⟩ => show win0_11.index t (0 : Fin 2) * 1 + 1 * 0 = 0; omega
    | ⟨1, _⟩ => show win0_11.index t (1 : Fin 2) * 512 + 1 * q.val = J.val; omega)
  rw [e]
  exact entry_v10 m c J

/-- Entry q of bias block 12 is entry J of argument 12. -/
theorem blk12_at (c : Dev nD) (t : Fin cfg0.N) (q : Fin 512) (J : Fin 2048)
    (hJ : J.val = win0_16.index t (1 : Fin 2) * 512 + q.val) :
    (iblk m c 12 t : Vec Ideal S1x512 .f32) (ix2 (0 : Fin 1) q) = m ((c : Thread nD τ).loc main_arg12) (ix1 J) := by
  obtain ⟨e0, e1⟩ := idx_w12 t
  show (V m c main_v11 : S1x2048.Idx → EReal) (((cfg0.win 12).blk t).view.emb (ix2 (0 : Fin 1) q)) = _
  have e : ((cfg0.win 12).blk t).view.emb (ix2 (0 : Fin 1) q) = (ix2 (0 : Fin 1) J : S1x2048.Idx) := funext fun a => Fin.ext (by
    match a with
    | ⟨0, _⟩ => show win0_12.index t (0 : Fin 2) * 1 + 1 * 0 = 0; omega
    | ⟨1, _⟩ => show win0_12.index t (1 : Fin 2) * 512 + 1 * q.val = J.val; omega)
  rw [e]
  exact entry_v11 m c J

/-- Entry q of bias block 13 is entry J of argument 13. -/
theorem blk13_at (c : Dev nD) (t : Fin cfg0.N) (q : Fin 512) (J : Fin 2048)
    (hJ : J.val = win0_16.index t (1 : Fin 2) * 512 + q.val) :
    (iblk m c 13 t : Vec Ideal S1x512 .f32) (ix2 (0 : Fin 1) q) = m ((c : Thread nD τ).loc main_arg13) (ix1 J) := by
  obtain ⟨e0, e1⟩ := idx_w13 t
  show (V m c main_v12 : S1x2048.Idx → EReal) (((cfg0.win 13).blk t).view.emb (ix2 (0 : Fin 1) q)) = _
  have e : ((cfg0.win 13).blk t).view.emb (ix2 (0 : Fin 1) q) = (ix2 (0 : Fin 1) J : S1x2048.Idx) := funext fun a => Fin.ext (by
    match a with
    | ⟨0, _⟩ => show win0_13.index t (0 : Fin 2) * 1 + 1 * 0 = 0; omega
    | ⟨1, _⟩ => show win0_13.index t (1 : Fin 2) * 512 + 1 * q.val = J.val; omega)
  rw [e]
  exact entry_v12 m c J

/-- Entry q of bias block 14 is entry J of argument 14. -/
theorem blk14_at (c : Dev nD) (t : Fin cfg0.N) (q : Fin 512) (J : Fin 2048)
    (hJ : J.val = win0_16.index t (1 : Fin 2) * 512 + q.val) :
    (iblk m c 14 t : Vec Ideal S1x512 .f32) (ix2 (0 : Fin 1) q) = m ((c : Thread nD τ).loc main_arg14) (ix1 J) := by
  obtain ⟨e0, e1⟩ := idx_w14 t
  show (V m c main_v13 : S1x2048.Idx → EReal) (((cfg0.win 14).blk t).view.emb (ix2 (0 : Fin 1) q)) = _
  have e : ((cfg0.win 14).blk t).view.emb (ix2 (0 : Fin 1) q) = (ix2 (0 : Fin 1) J : S1x2048.Idx) := funext fun a => Fin.ext (by
    match a with
    | ⟨0, _⟩ => show win0_14.index t (0 : Fin 2) * 1 + 1 * 0 = 0; omega
    | ⟨1, _⟩ => show win0_14.index t (1 : Fin 2) * 512 + 1 * q.val = J.val; omega)
  rw [e]
  exact entry_v13 m c J

end Cert.KernelIdeal.CellValue

end
-- ==== Proof.TileCell.lean ====
/-
  One (256 × 512) output tile of the fused kernel, read at an element.

  At a grid point the body holds a 256-row block of x and of h (all 2048 columns), the matching 256 × 512 block of c,
  a 2048 × 512 column block of each of the eight weight matrices and a 1 × 512 block of each bias. Each gate is two
  matrix products into a zero accumulator, added, plus the bias row broadcast down the 256 rows; at the exact values a
  product into zero is the plain sum over the 2048 contracted positions, so element (p, q) of a gate tile is the gate's
  pre-activation of row p of the x and h blocks and column q of the two weight blocks. The rest of the body is
  pointwise, so element (p, q) of the two stored tiles is the scalar cell of those rows, columns and entries.
-/
import proofs.«145141_j20315195310597_1_alg».proof.Proof.Gen.KernelIdeal.Skeleton
import proofs.«145141_j20315195310597_1_alg».proof.Proof.CellSpec
import Idealize.ShloMosaic.Lib.ValueIdx
import Idealize.ShloMosaic.Lib.Pipeline.Value
import Idealize.ShloMosaic.PureOps.Ideal.Laws

noncomputable section

namespace Cert.KernelIdeal.TileValue

open Idealize.ShloMosaic Idealize.ShloMosaic.ValueIdx Cert.KernelIdeal Cert.KernelIdeal.Gen

/-! ## The operand indices of the tile's matrix product -/

theorem lhs_tile_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_tile_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_tile_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_tile_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- A (256 × 2048) by (2048 × 512) product into the zero tile, at element (p, q): the sum over the 2048 contracted
    positions of row p of the left operand times column q of the right one. -/
theorem product_at (l : FVec Ideal S256x2048 .bf16) (r : FVec Ideal S2048x512 .bf16) (p : Fin 256) (q : Fin 512) :
    matmul dot_S256x2048_S2048x512_S256x512_1_0_0_1_n_n none l r (constant S256x512 .f32 0x00000000#32) (ix2 p q)
      = ∑ k : Fin 2048, l (ix2 p k) * r (ix2 k q) := by
  simp only [matmul]
  rw [Ideal.matmul_constant_zero_apply, ← Equiv.sum_comp (ValueIdx.contrEquiv1 dot_S256x2048_S2048x512_S256x512_1_0_0_1_n_n 2048 rfl rfl).symm]
  refine Finset.sum_congr rfl fun k _ => ?_
  have hk := ValueIdx.contrEquiv1_symm_val dot_S256x2048_S2048x512_S256x512_1_0_0_1_n_n 2048 rfl rfl k
  have el : dot_S256x2048_S2048x512_S256x512_1_0_0_1_n_n.lhsIdx (ix2 p q) ((ValueIdx.contrEquiv1 dot_S256x2048_S2048x512_S256x512_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S256x2048_S2048x512_S256x512_1_0_0_1_n_n.rhsIdx (ix2 p q) ((ValueIdx.contrEquiv1 dot_S256x2048_S2048x512_S256x512_1_0_0_1_n_n 2048 rfl rfl).symm k) = ix2 k q := funext fun a => Fin.ext (by
    match a with
    | ⟨0, _⟩ => exact (rhs_tile_0 _ _).trans hk
    | ⟨1, _⟩ => exact rhs_tile_1 _ _)
  rw [el, er]

/-- A bias row broadcast down the tile's rows, at element (p, q), is the row's entry q. -/
theorem bias_at (b : Vec Ideal S1x512 .f32) (p : Fin 256) (q : Fin 512) :
    broadcastTo S256x512 (shapeCast S1x512 b shapeCasts_S1x512_S1x512) broadcasts_S1x512_S256x512 (ix2 p q)
      = b (ix2 (0 : Fin 1) q) := by
  rw [shapeCast_self]
  exact broadcastTo_apply _ _ _ _ (fun a => match a with
    | ⟨0, _⟩ => by show (0 : ℕ) = if (1 : Nat) = 1 then 0 else _; rw [if_pos rfl]
    | ⟨1, _⟩ => by show q.val = if (512 : Nat) = 1 then 0 else q.val; rw [if_neg (by decide)])

/-- Row p of a block of x or h, and column q of a weight block, as functions of the contracted position. -/
abbrev rowOf (x : FVec Ideal S256x2048 .bf16) (p : Fin 256) : Fin 2048 → EReal := fun k => x (ix2 p k)
abbrev colOf (w : Vec Ideal S2048x512 .bf16) (q : Fin 512) : Fin 2048 → EReal := fun k => w (ix2 k q)

/-- A gate tile — two products into zero, added, plus the broadcast bias row — at element (p, q) is the gate's
    pre-activation of row p and column q. -/
theorem gate_at (x h : FVec Ideal S256x2048 .bf16) (wx wh : Vec Ideal S2048x512 .bf16) (b : Vec Ideal S1x512 .f32)
    (p : Fin 256) (q : Fin 512) :
    addf (addf (matmul dot_S256x2048_S2048x512_S256x512_1_0_0_1_n_n none x (shapeCast S2048x512 wx shapeCasts_S2048x512_S2048x512 : FVec Ideal S2048x512 .bf16) (constant S256x512 .f32 0x00000000#32))
        (matmul dot_S256x2048_S2048x512_S256x512_1_0_0_1_n_n none h (shapeCast S2048x512 wh shapeCasts_S2048x512_S2048x512 : FVec Ideal S2048x512 .bf16) (constant S256x512 .f32 0x00000000#32)))
      (broadcastTo S256x512 (shapeCast S1x512 b shapeCasts_S1x512_S1x512 : FVec Ideal S1x512 .f32) broadcasts_S1x512_S256x512) (ix2 p q)
      = Cert.LstmCell.preact (rowOf x p) (rowOf h p) (colOf wx q) (colOf wh q) (b (ix2 (0 : Fin 1) q)) := by
  rw [addf_apply, addf_apply, bias_at, shapeCast_self, shapeCast_self, product_at, product_at]
  rfl

/-! ## The body's values at an element -/

/-- The blocks of x and h pass through a shape cast to their own shape. -/
theorem xblock_cast (v0 : Vec Ideal S256x2048 .bf16) : k0_pay3 v0 = v0 := shapeCast_self _ _
theorem hblock_cast (v2 : Vec Ideal S256x2048 .bf16) : k0_pay4 v2 = v2 := shapeCast_self _ _

/-- The input gate's tile at (p, q). -/
theorem igate_at (v0 v2 : Vec Ideal S256x2048 .bf16) (v5 v8 : Vec Ideal S2048x512 .bf16) (v12 : Vec Ideal S1x512 .f32)
    (p : Fin 256) (q : Fin 512) :
    k0_pay5 v0 v2 v5 v8 v12 (ix2 p q)
      = Cert.LstmCell.preact (rowOf v0 p) (rowOf v2 p) (colOf v5 q) (colOf v8 q) (v12 (ix2 (0 : Fin 1) q)) := by
  unfold k0_pay5
  refine (gate_at (k0_pay3 v0) (k0_pay4 v2) v5 v8 v12 p q).trans ?_
  rw [xblock_cast, hblock_cast]

/-- The forget gate's tile at (p, q). -/
theorem fgate_at (v0 v2 : Vec Ideal S256x2048 .bf16) (v16 v19 : Vec Ideal S2048x512 .bf16) (v23 : Vec Ideal S1x512 .f32)
    (p : Fin 256) (q : Fin 512) :
    k0_pay6 v0 v2 v16 v19 v23 (ix2 p q)
      = Cert.LstmCell.preact (rowOf v0 p) (rowOf v2 p) (colOf v16 q) (colOf v19 q) (v23 (ix2 (0 : Fin 1) q)) := by
  unfold k0_pay6
  refine (gate_at (k0_pay3 v0) (k0_pay4 v2) v16 v19 v23 p q).trans ?_
  rw [xblock_cast, hblock_cast]

/-- The x-half of the output gate's tile at (p, q). -/
theorem ogate_x_at (v0 : Vec Ideal S256x2048 .bf16) (v27 : Vec Ideal S2048x512 .bf16) (p : Fin 256) (q : Fin 512) :
    k0_pay7 v0 v27 (ix2 p q) = ∑ k : Fin 2048, rowOf v0 p k * colOf v27 q k := by
  unfold k0_pay7
  refine (product_at (k0_pay3 v0) (shapeCast S2048x512 v27 shapeCasts_S2048x512_S2048x512 : FVec Ideal S2048x512 .bf16) p q).trans ?_
  rw [xblock_cast, shapeCast_self]

/-- The new cell state's tile at (p, q), over the two gate tiles already formed. -/
theorem cstate_at (v1 v3 : FVec Ideal S256x2048 .bf16) (v4 : Vec Ideal S256x512 .f32) (v15 v26 : FVec Ideal S256x512 .f32)
    (v38 v41 : Vec Ideal S2048x512 .bf16) (v45 : Vec Ideal S1x512 .f32) (p : Fin 256) (q : Fin 512) :
    k0_pay1 v1 v3 v4 v15 v26 v38 v41 v45 (ix2 p q)
      = v4 (ix2 p q) * Ideal.logistic (v26 (ix2 p q)) + Ideal.logistic (v15 (ix2 p q))
          * Ideal.tanh (Cert.LstmCell.preact (rowOf v1 p) (rowOf v3 p) (colOf v38 q) (colOf v41 q) (v45 (ix2 (0 : Fin 1) q))) := by
  unfold k0_pay1
  exact congrArg (fun g : EReal => v4 (ix2 p q) * Ideal.logistic (v26 (ix2 p q)) + Ideal.logistic (v15 (ix2 p q)) * Ideal.tanh g)
    (gate_at v1 v3 v38 v41 v45 p q)

/-- The new hidden state's tile at (p, q), over the gate tiles already formed and the new cell state's tile. -/
theorem hstate_at (v1 v3 : FVec Ideal S256x2048 .bf16) (v4 : Vec Ideal S256x512 .f32) (v15 v26 v29 : FVec Ideal S256x512 .f32)
    (v30 : Vec Ideal S2048x512 .bf16) (v34 : Vec Ideal S1x512 .f32) (v38 v41 : Vec Ideal S2048x512 .bf16) (v45 : Vec Ideal S1x512 .f32)
    (p : Fin 256) (q : Fin 512) :
    k0_pay2 v1 v3 v4 v15 v26 v29 v30 v34 v38 v41 v45 (ix2 p q)
      = Ideal.logistic ((v29 (ix2 p q) + ∑ k : Fin 2048, rowOf v3 p k * colOf v30 q k) + v34 (ix2 (0 : Fin 1) q))
          * Ideal.tanh (k0_pay1 v1 v3 v4 v15 v26 v38 v41 v45 (ix2 p q)) := by
  unfold k0_pay2
  have e1 : matmul dot_S256x2048_S2048x512_S256x512_1_0_0_1_n_n none v3 (shapeCast S2048x512 v30 shapeCasts_S2048x512_S2048x512 : FVec Ideal S2048x512 .bf16)
      (constant S256x512 .f32 0x00000000#32) (ix2 p q) = ∑ k : Fin 2048, rowOf v3 p k * colOf v30 q k :=
    (product_at v3 (shapeCast S2048x512 v30 shapeCasts_S2048x512_S2048x512 : FVec Ideal S2048x512 .bf16) p q).trans (by rw [shapeCast_self])
  exact congrArg₂ (fun a b : EReal => Ideal.logistic ((v29 (ix2 p q) + a) + b) * Ideal.tanh (k0_pay1 v1 v3 v4 v15 v26 v38 v41 v45 (ix2 p q)))
    e1 (bias_at v34 p q)

/-! ## The two stored tiles -/

/-- Element (p, q) of the tile stored to the new-cell-state output: the scalar cell of row p of the x and h blocks,
    the c block's entry, column q of the six weight blocks it reads and entry q of the three bias rows. -/
theorem ctile_at (x0 x1 : Vec Ideal S256x2048 .bf16) (x2 : Vec Ideal S256x512 .f32) (x3 x4 x6 x7 x8 x10 : Vec Ideal S2048x512 .bf16)
    (x11 x12 x14 : Vec Ideal S1x512 .f32) (p : Fin 256) (q : Fin 512) :
    k0_pay1 (k0_pay3 x0) (k0_pay4 x1) x2 (k0_pay5 x0 x1 x3 x7 x11) (k0_pay6 x0 x1 x4 x8 x12) x6 x10 x14 (ix2 p q)
      = Cert.LstmCell.cellC (rowOf x0 p) (rowOf x1 p) (x2 (ix2 p q)) (colOf x3 q) (colOf x4 q) (colOf x6 q) (colOf x7 q) (colOf x8 q)
          (colOf x10 q) (x11 (ix2 (0 : Fin 1) q)) (x12 (ix2 (0 : Fin 1) q)) (x14 (ix2 (0 : Fin 1) q)) := by
  rw [cstate_at, igate_at, fgate_at, xblock_cast, hblock_cast]
  rfl

/-- Element (p, q) of the tile stored to the new-hidden-state output. -/
theorem htile_at (x0 x1 : Vec Ideal S256x2048 .bf16) (x2 : Vec Ideal S256x512 .f32) (x3 x4 x5 x6 x7 x8 x9 x10 : Vec Ideal S2048x512 .bf16)
    (x11 x12 x13 x14 : Vec Ideal S1x512 .f32) (p : Fin 256) (q : Fin 512) :
    k0_pay2 (k0_pay3 x0) (k0_pay4 x1) x2 (k0_pay5 x0 x1 x3 x7 x11) (k0_pay6 x0 x1 x4 x8 x12) (k0_pay7 x0 x5) x9 x13 x6 x10 x14 (ix2 p q)
      = Cert.LstmCell.cellH (rowOf x0 p) (rowOf x1 p) (x2 (ix2 p q)) (colOf x3 q) (colOf x4 q) (colOf x5 q) (colOf x6 q) (colOf x7 q)
          (colOf x8 q) (colOf x9 q) (colOf x10 q) (x11 (ix2 (0 : Fin 1) q)) (x12 (ix2 (0 : Fin 1) q)) (x13 (ix2 (0 : Fin 1) q))
          (x14 (ix2 (0 : Fin 1) q)) := by
  rw [hstate_at, ctile_at, ogate_x_at, hblock_cast]
  rfl

end Cert.KernelIdeal.TileValue

end
-- ==== Proof.KernelCell.lean ====
/-
  The fused kernel computes the LSTM cell of its arguments.

  At every grid point the two tiles the body stores are, element by element, the scalar cell of the rows, columns and
  entries its blocks hold (the tile module); those blocks are rows of x and h, columns of the weights and entries of c
  and the biases of the ARGUMENTS at the array position under the tile's element (the arrays module). So what each point
  writes back is its block of one whole-array function; the 64 blocks tile each [4096, 2048] result, so after the region
  each result array is that function; and the two host lines after the region only insert a unit middle axis.
-/
import proofs.«145141_j20315195310597_1_alg».proof.Proof.KernelArrays
import proofs.«145141_j20315195310597_1_alg».proof.Proof.TileCell

set_option maxRecDepth 16384

noncomputable section

namespace Cert.KernelIdeal.CellValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.TileValue
open Cert.LstmCell (Args cellC cellH)

variable (m : (ℓ : Loc nD τ sig) → Buf (Elt Ideal) ℓ) (ρ : Dev nD → PrngReg)

theorem hz : (![0, 0] : Fin 2 → Nat) = fun _ => 0 := funext fun a => by fin_cases a <;> rfl

/-- The scalar cell depends on its arguments only through their values. -/
theorem cellC_congr {xr xr' hr hr' wxi wxi' wxf wxf' wxc wxc' whi whi' whf whf' whc whc' : Fin 2048 → EReal}
    {c c' bi bi' bf bf' bc bc' : EReal}
    (e1 : xr = xr') (e2 : hr = hr') (e3 : c = c') (e4 : wxi = wxi') (e5 : wxf = wxf') (e6 : wxc = wxc') (e7 : whi = whi')
    (e8 : whf = whf') (e9 : whc = whc') (e10 : bi = bi') (e11 : bf = bf') (e12 : bc = bc') :
    cellC xr hr c wxi wxf wxc whi whf whc bi bf bc = cellC xr' hr' c' wxi' wxf' wxc' whi' whf' whc' bi' bf' bc' := by
  subst e1 e2 e3 e4 e5 e6 e7 e8 e9 e10 e11 e12; rfl

theorem cellH_congr {xr xr' hr hr' wxi wxi' wxf wxf' wxo wxo' wxc wxc' whi whi' whf whf' who who' whc whc' : Fin 2048 → EReal}
    {c c' bi bi' bf bf' bo bo' bc bc' : EReal}
    (e1 : xr = xr') (e2 : hr = hr') (e3 : c = c') (e4 : wxi = wxi') (e5 : wxf = wxf') (e6 : wxo = wxo') (e7 : wxc = wxc')
    (e8 : whi = whi') (e9 : whf = whf') (e10 : who = who') (e11 : whc = whc') (e12 : bi = bi') (e13 : bf = bf') (e14 : bo = bo')
    (e15 : bc = bc') :
    cellH xr hr c wxi wxf wxo wxc whi whf who whc bi bf bo bc = cellH xr' hr' c' wxi' wxf' wxo' wxc' whi' whf' who' whc' bi' bf' bo' bc' := by
  subst e1 e2 e3 e4 e5 e6 e7 e8 e9 e10 e11 e12 e13 e14 e15; rfl

/-- The array position under element y of the tiles written at point t: row 256·(batch block) + y₀, column
    512·(hidden block) + y₁. -/
def under (t : Fin cfg0.N) (y : S256x512.Idx) : S4096x2048.Idx :=
  ix2 (n0 := 4096) (n1 := 2048)
    ⟨win0_16.index t (0 : Fin 2) * 256 + (y 0).val, by have := (idx_bounds t).1; have h : (y 0).val < 256 := (y 0).isLt; omega⟩
    ⟨win0_16.index t (1 : Fin 2) * 512 + (y 1).val, by have := (idx_bounds t).2; have h : (y 1).val < 512 := (y 1).isLt; omega⟩

/-! ## The two tiles of a point, as whole-array functions read under the tile -/

theorem ctile_eq (c : Dev nD) (t : Fin cfg0.N) :
    (k0_pay1 (k0_pay3 (iblk m c 0 t)) (k0_pay4 (iblk m c 1 t)) (iblk m c 2 t) (k0_pay5 (iblk m c 0 t) (iblk m c 1 t) (iblk m c 3 t) (iblk m c 7 t) (iblk m c 11 t)) (k0_pay6 (iblk m c 0 t) (iblk m c 1 t) (iblk m c 4 t) (iblk m c 8 t) (iblk m c 12 t)) (iblk m c 6 t) (iblk m c 10 t) (iblk m c 14 t) : Vec Ideal S256x512 .f32)
      = fun y => (argsOf m c).arrC (under t y) := by
  funext y
  obtain ⟨p, q, rfl⟩ : ∃ (p : Fin 256) (q : Fin 512), y = ix2 p q := ⟨y 0, y 1, eq_ix2 y⟩
  refine (ctile_at (iblk m c 0 t) (iblk m c 1 t) (iblk m c 2 t) (iblk m c 3 t) (iblk m c 4 t) (iblk m c 6 t) (iblk m c 7 t) (iblk m c 8 t) (iblk m c 10 t) (iblk m c 11 t) (iblk m c 12 t) (iblk m c 14 t) p q).trans ?_
  exact cellC_congr (funext fun k => blk0_at m c t p k _ rfl)
    (funext fun k => blk1_at m c t p k _ rfl)
    (blk2_at m c t p q _ _ rfl rfl)
    (funext fun k => blk3_at m c t k q _ rfl)
    (funext fun k => blk4_at m c t k q _ rfl)
    (funext fun k => blk6_at m c t k q _ rfl)
    (funext fun k => blk7_at m c t k q _ rfl)
    (funext fun k => blk8_at m c t k q _ rfl)
    (funext fun k => blk10_at m c t k q _ rfl)
    (blk11_at m c t q _ rfl)
    (blk12_at m c t q _ rfl)
    (blk14_at m c t q _ rfl)

theorem htile_eq (c : Dev nD) (t : Fin cfg0.N) :
    (k0_pay2 (k0_pay3 (iblk m c 0 t)) (k0_pay4 (iblk m c 1 t)) (iblk m c 2 t) (k0_pay5 (iblk m c 0 t) (iblk m c 1 t) (iblk m c 3 t) (iblk m c 7 t) (iblk m c 11 t)) (k0_pay6 (iblk m c 0 t) (iblk m c 1 t) (iblk m c 4 t) (iblk m c 8 t) (iblk m c 12 t)) (k0_pay7 (iblk m c 0 t) (iblk m c 5 t)) (iblk m c 9 t) (iblk m c 13 t) (iblk m c 6 t) (iblk m c 10 t) (iblk m c 14 t) : Vec Ideal S256x512 .f32)
      = fun y => (argsOf m c).arrH (under t y) := by
  funext y
  obtain ⟨p, q, rfl⟩ : ∃ (p : Fin 256) (q : Fin 512), y = ix2 p q := ⟨y 0, y 1, eq_ix2 y⟩
  refine (htile_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  exact cellH_congr (funext fun k => blk0_at m c t p k _ rfl)
    (funext fun k => blk1_at m c t p k _ rfl)
    (blk2_at m c t p q _ _ rfl rfl)
    (funext fun k => blk3_at m c t k q _ rfl)
    (funext fun k => blk4_at m c t k q _ rfl)
    (funext fun k => blk5_at m c t k q _ rfl)
    (funext fun k => blk6_at m c t k q _ rfl)
    (funext fun k => blk7_at m c t k q _ rfl)
    (funext fun k => blk8_at m c t k q _ rfl)
    (funext fun k => blk9_at m c t k q _ rfl)
    (funext fun k => blk10_at m c t k q _ rfl)
    (blk11_at m c t q _ rfl)
    (blk12_at m c t q _ rfl)
    (blk13_at m c t q _ rfl)
    (blk14_at m c t q _ rfl)

/-! ## From blocks to the arrays -/

/-- What point t writes back through window 16 is block t of the whole-array function. -/
theorem flushedC (c : Dev nD) (t : Fin cfg0.N) :
    (dats m 0 c).flushed 16 t = ((cfg0.win 16).blk t).view.read (Elt Ideal) (argsOf m c).arrC := by
  show (cfg0.win 16).cut (grid0.coords t) ((dats m 0 c).after 16 t) = _
  rw [after0_16]
  unfold out0_16
  rw [View.canon_unit_zero hz]
  simp only [View.ld_unit_zero (S := S256x2048) hz, View.ld_unit_zero (S := S256x512) hz, View.ld_unit_zero (S := S2048x512) hz,
    View.ld_unit_zero (S := S1x512) hz]
  refine (ctile_eq m c t).trans ?_

  funext y
  show (argsOf m c).arrC (under t y) = (argsOf m c).arrC (((cfg0.win 16).blk t).view.emb y)
  refine congrArg _ (funext fun a => Fin.ext ?_)
  match a with
  | ⟨0, _⟩ => show win0_16.index t (0 : Fin 2) * 256 + (y 0).val = win0_16.index t (0 : Fin 2) * 256 + 1 * (y 0).val; omega
  | ⟨1, _⟩ => show win0_16.index t (1 : Fin 2) * 512 + (y 1).val = win0_16.index t (1 : Fin 2) * 512 + 1 * (y 1).val; omega

/-- What point t writes back through window 15 is block t of the whole-array function. -/
theorem flushedH (c : Dev nD) (t : Fin cfg0.N) :
    (dats m 0 c).flushed 15 t = ((cfg0.win 15).blk t).view.read (Elt Ideal) (argsOf m c).arrH := by
  show (cfg0.win 15).cut (grid0.coords t) ((dats m 0 c).after 15 t) = _
  rw [after0_15]
  unfold out0_15
  rw [View.canon_unit_zero hz]
  simp only [View.ld_unit_zero (S := S256x2048) hz, View.ld_unit_zero (S := S256x512) hz, View.ld_unit_zero (S := S2048x512) hz,
    View.ld_unit_zero (S := S1x512) hz]
  refine (htile_eq m c t).trans ?_
  obtain ⟨e0, e1⟩ := idx_w15 t
  funext y
  show (argsOf m c).arrH (under t y) = (argsOf m c).arrH (((cfg0.win 15).blk t).view.emb y)
  refine congrArg _ (funext fun a => Fin.ext ?_)
  match a with
  | ⟨0, _⟩ => show win0_16.index t (0 : Fin 2) * 256 + (y 0).val = win0_15.index t (0 : Fin 2) * 256 + 1 * (y 0).val; omega
  | ⟨1, _⟩ => show win0_16.index t (1 : Fin 2) * 512 + (y 1).val = win0_15.index t (1 : Fin 2) * 512 + 1 * (y 1).val; omega

/-- An array index is in point t's block of window 16 iff each coordinate is in the block's range on its axis. -/
theorem mem_blkC (t : Fin cfg0.N) (i : S4096x2048.Idx) :
    i ∈ ((cfg0.win 16).blk t).view.set ↔ ∀ a : Fin 2, win0_16.index t a * S256x512.size a ≤ (i a).val ∧ (i a).val < win0_16.index t a * S256x512.size a + S256x512.size a := by
  show i ∈ ((View.whole main_v14_1).slice (win0_16.rect t)).set ↔ _
  rw [View.set_slice_whole, Rect.mem_set_unit]
  exact Iff.rfl

/-- The 64 blocks of window 16 tile its [4096, 2048] array: entry (r, j) lies in block (r / 256, j / 512). -/
theorem coverC (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 256, by omega⟩ ⟨(i 1).val / 512, by omega⟩
  have q0 : win0_16.index t (0 : Fin 2) = (i 0).val / 256 := congrFun ht 0
  have q1 : win0_16.index t (1 : Fin 2) = (i 1).val / 512 := congrFun ht 1

  refine ⟨t, flush0_16 t, ?_⟩
  rw [mem_blkC]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 512 ≤ (i 1).val ∧ (i 1).val < win0_16.index t (1 : Fin 2) * 512 + 512; omega

/-- An array index is in point t's block of window 15 iff each coordinate is in the block's range on its axis. -/
theorem mem_blkH (t : Fin cfg0.N) (i : S4096x2048.Idx) :
    i ∈ ((cfg0.win 15).blk t).view.set ↔ ∀ a : Fin 2, win0_15.index t a * S256x512.size a ≤ (i a).val ∧ (i a).val < win0_15.index t a * S256x512.size a + S256x512.size a := by
  show i ∈ ((View.whole main_v14_0).slice (win0_15.rect t)).set ↔ _
  rw [View.set_slice_whole, Rect.mem_set_unit]
  exact Iff.rfl

/-- The 64 blocks of window 15 tile its [4096, 2048] array: entry (r, j) lies in block (r / 256, j / 512). -/
theorem coverH (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 256, by omega⟩ ⟨(i 1).val / 512, by omega⟩
  have q0 : win0_16.index t (0 : Fin 2) = (i 0).val / 256 := congrFun ht 0
  have q1 : win0_16.index t (1 : Fin 2) = (i 1).val / 512 := congrFun ht 1
  obtain ⟨e0, e1⟩ := idx_w15 t
  refine ⟨t, flush0_15 t, ?_⟩
  rw [mem_blkH]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 512 ≤ (i 1).val ∧ (i 1).val < win0_15.index t (1 : Fin 2) * 512 + 512; omega

/-- After the region the new-cell-state array is the cell function of the arguments … -/
theorem finalC (c : Dev nD) : (dats m 0 c).arrAt 16 cfg0.N = (argsOf m c).arrC :=
  (dats m 0 c).arrAt_eq_of_cover 16 (argsOf m c).arrC (fun t _ => flushedC m c t) coverC

/-- … and the new-hidden-state array likewise. -/
theorem finalH (c : Dev nD) : (dats m 0 c).arrAt 15 cfg0.N = (argsOf m c).arrH :=
  (dats m 0 c).arrAt_eq_of_cover 15 (argsOf m c).arrH (fun t _ => flushedH m c t) coverH

end Cert.KernelIdeal.CellValue

end
-- ==== Proof.KernelRun.lean ====
/-
  The fused kernel's run, read: every weakly fair execution ends with the two results at the LSTM cell of the
  arguments (new hidden state first, new cell state second, each with its unit middle axis) and the arguments unchanged.
-/
import proofs.«145141_j20315195310597_1_alg».proof.Proof.KernelCell

set_option maxRecDepth 16384

noncomputable section

namespace Cert.KernelIdeal.CellValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen
open Cert.LstmCell (Args)

variable (m : (ℓ : Loc nD τ sig) → Buf (Elt Ideal) ℓ) (ρ : Dev nD → PrngReg)

/-- The host line after the region that returns the new hidden state only inserts a unit middle axis. -/
theorem tailH (c : Dev nD) : Pipeline.afterTail₀ cfgs (dats m) 0 (V0 m) [hostOps1] c main_v15 = (argsOf m c).outH := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14_0)
      = (argsOf m c).arrH :=
    (Pipeline.withArrays_arr spec0 launch0.win.arr_inj c _ _ 15).trans (finalH m c)
  rw [e]
  funext i
  exact broadcastInDim_apply _ _ _ i (ix2 (n0 := 4096) (n1 := 2048) (i 0) (i 2)) (fun a => match a with
    | ⟨0, _⟩ => by show (i 0).val = if (4096 : Nat) = 1 then 0 else (i 0).val; rw [if_neg (by decide)]
    | ⟨1, _⟩ => by show (i 2).val = if (2048 : Nat) = 1 then 0 else (i 2).val; rw [if_neg (by decide)])

/-- The host line after the region that returns the new cell state only inserts a unit middle axis. -/
theorem tailC (c : Dev nD) : Pipeline.afterTail₀ cfgs (dats m) 0 (V0 m) [hostOps1] c main_v16 = (argsOf m c).outC := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v14_1)
      = (argsOf m c).arrC :=
    (Pipeline.withArrays_arr spec0 launch0.win.arr_inj c _ _ 16).trans (finalC m c)
  rw [e]
  funext i
  exact broadcastInDim_apply _ _ _ i (ix2 (n0 := 4096) (n1 := 2048) (i 0) (i 2)) (fun a => match a with
    | ⟨0, _⟩ => by show (i 0).val = if (4096 : Nat) = 1 then 0 else (i 0).val; rw [if_neg (by decide)]
    | ⟨1, _⟩ => by show (i 2).val = if (2048 : Nat) = 1 then 0 else (i 2).val; rw [if_neg (by decide)])

/-- The run of the whole program: the results after the host tail, the arguments as launched. -/
theorem run : θ_run defs (onTc (τ := τ) (main (F := Ideal))) ⟨m, fun _ => 0, ρ⟩ fun r => ∀ c : Dev nD,
      r.2.mem ((c.tc : Thread nD τ).loc main_v15) = (argsOf m c).outH
      ∧ r.2.mem ((c.tc : Thread nD τ).loc main_v16) = (argsOf m c).outC
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨((h c).2 main_v15 (Pipeline.mem_restRefs_of main_v15 (by decide) (by decide))).trans (tailH m c),
      ((h c).2 main_v16 (Pipeline.mem_restRefs_of main_v16 (by decide) (by decide))).trans (tailC m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

end Cert.KernelIdeal.CellValue

end
-- ==== Proof.RefCell.lean ====
/-
  The reference computes the LSTM cell of its arguments.

  The reference joins the four input-side weight matrices side by side into one [2048, 8192] matrix, the four
  hidden-side ones likewise and the four biases end to end, forms ONE pre-activation array
      G = (x · Wx + h · Wh) + b        of shape [4096, 8192],
  and cuts it back into four [4096, 2048] column bands: input, forget, output and candidate gate. Column 2048·g + j of a
  joined matrix is column j of its g-th piece, so band g of G at (r, j) is gate g's pre-activation of row r and
  column j. The sigmoid is spelt 1 / (1 + e^(-t)) with the word for one; the rest is pointwise, and the two results
  gain a unit middle axis.
-/
import proofs.«145141_j20315195310597_1_alg».proof.Defs
import proofs.«145141_j20315195310597_1_alg».proof.Proof.Gen.ReferenceIdeal.Run
import proofs.«145141_j20315195310597_1_alg».proof.Proof.Gen.ReferenceIdeal.Read
import proofs.«145141_j20315195310597_1_alg».proof.Proof.CellSpec

noncomputable section

namespace Cert.ReferenceIdeal.CellValue

open Idealize.ShloMosaic Idealize.ShloMosaic.ValueIdx Cert.ReferenceIdeal Cert.ReferenceIdeal.Gen Cert.ReferenceIdeal.Read
open Cert.LstmCell (preact cellC cellH row col Args)

/-- The g-th of four things. -/
def pick4 {α : Type} (g : Fin 4) (a b c d : α) : α :=
  match g with | 0 => a | 1 => b | 2 => c | 3 => d

/-! ## The joined arrays read at an index -/

/-- Four [2048, 2048] matrices side by side: column 2048·g + j of the result is column j of the g-th. -/
theorem joined_cols (a b c d : S2048x2048.Idx → EReal) (hc : Shape.Concatenates [S2048x2048, S2048x2048, S2048x2048, S2048x2048] S2048x8192 1)
    (g : Fin 4) (k j : Fin 2048) (i : S2048x8192.Idx) (h0 : (i 0).val = k.val) (h1 : (i 1).val = 2048 * g.val + j.val) :
    concatenate S2048x8192 1 [⟨S2048x2048, a⟩, ⟨S2048x2048, b⟩, ⟨S2048x2048, c⟩, ⟨S2048x2048, d⟩] hc i = pick4 g a b c d (ix2 k j) := by
  have hi : ∀ b' : Fin S2048x2048.rank, b'.cast (rfl : S2048x2048.rank = S2048x8192.rank) ≠ (1 : Fin S2048x8192.rank) →
      ((ix2 k j : S2048x2048.Idx) b').val = (i (b'.cast (rfl : S2048x2048.rank = S2048x8192.rank))).val := fun b' hb' => by
    match b' with
    | ⟨0, _⟩ => exact h0.symm
    | ⟨1, _⟩ => exact absurd rfl hb'
  match g with
  | 0 => exact concatenate_apply_piece 1 [⟨S2048x2048, a⟩, ⟨S2048x2048, b⟩, ⟨S2048x2048, c⟩, ⟨S2048x2048, d⟩] hc i 0 (by show 0 < 4; omega) S2048x2048 a rfl rfl 0 rfl (ix2 k j) hi (by show 0 + j.val = (i 1).val; rw [h1]; show 0 + j.val = 2048 * 0 + j.val; omega)
  | 1 => exact concatenate_apply_piece 1 [⟨S2048x2048, a⟩, ⟨S2048x2048, b⟩, ⟨S2048x2048, c⟩, ⟨S2048x2048, d⟩] hc i 1 (by show 1 < 4; omega) S2048x2048 b rfl rfl 2048 rfl (ix2 k j) hi (by show 2048 + j.val = (i 1).val; rw [h1]; show 2048 + j.val = 2048 * 1 + j.val; omega)
  | 2 => exact concatenate_apply_piece 1 [⟨S2048x2048, a⟩, ⟨S2048x2048, b⟩, ⟨S2048x2048, c⟩, ⟨S2048x2048, d⟩] hc i 2 (by show 2 < 4; omega) S2048x2048 c rfl rfl 4096 rfl (ix2 k j) hi (by show 4096 + j.val = (i 1).val; rw [h1]; show 4096 + j.val = 2048 * 2 + j.val; omega)
  | 3 => exact concatenate_apply_piece 1 [⟨S2048x2048, a⟩, ⟨S2048x2048, b⟩, ⟨S2048x2048, c⟩, ⟨S2048x2048, d⟩] hc i 3 (by show 3 < 4; omega) S2048x2048 d rfl rfl 6144 rfl (ix2 k j) hi (by show 6144 + j.val = (i 1).val; rw [h1]; show 6144 + j.val = 2048 * 3 + j.val; omega)

/-- Four [2048] vectors end to end: entry 2048·g + j of the result is entry j of the g-th. -/
theorem joined_entries (a b c d : S2048.Idx → EReal) (hc : Shape.Concatenates [S2048, S2048, S2048, S2048] S8192 0)
    (g : Fin 4) (j : Fin 2048) (i : S8192.Idx) (h1 : (i 0).val = 2048 * g.val + j.val) :
    concatenate S8192 0 [⟨S2048, a⟩, ⟨S2048, b⟩, ⟨S2048, c⟩, ⟨S2048, d⟩] hc i = pick4 g a b c d (ix1 j) := by
  have hi : ∀ b' : Fin S2048.rank, b'.cast (rfl : S2048.rank = S8192.rank) ≠ (0 : Fin S8192.rank) →
      ((ix1 j : S2048.Idx) b').val = (i (b'.cast (rfl : S2048.rank = S8192.rank))).val := fun b' hb' => by
    match b' with
    | ⟨0, _⟩ => exact absurd rfl hb'
  match g with
  | 0 => exact concatenate_apply_piece 0 [⟨S2048, a⟩, ⟨S2048, b⟩, ⟨S2048, c⟩, ⟨S2048, d⟩] hc i 0 (by show 0 < 4; omega) S2048 a rfl rfl 0 rfl (ix1 j) hi (by show 0 + j.val = (i 0).val; rw [h1]; show 0 + j.val = 2048 * 0 + j.val; omega)
  | 1 => exact concatenate_apply_piece 0 [⟨S2048, a⟩, ⟨S2048, b⟩, ⟨S2048, c⟩, ⟨S2048, d⟩] hc i 1 (by show 1 < 4; omega) S2048 b rfl rfl 2048 rfl (ix1 j) hi (by show 2048 + j.val = (i 0).val; rw [h1]; show 2048 + j.val = 2048 * 1 + j.val; omega)
  | 2 => exact concatenate_apply_piece 0 [⟨S2048, a⟩, ⟨S2048, b⟩, ⟨S2048, c⟩, ⟨S2048, d⟩] hc i 2 (by show 2 < 4; omega) S2048 c rfl rfl 4096 rfl (ix1 j) hi (by show 4096 + j.val = (i 0).val; rw [h1]; show 4096 + j.val = 2048 * 2 + j.val; omega)
  | 3 => exact concatenate_apply_piece 0 [⟨S2048, a⟩, ⟨S2048, b⟩, ⟨S2048, c⟩, ⟨S2048, d⟩] hc i 3 (by show 3 < 4; omega) S2048 d rfl rfl 6144 rfl (ix1 j) hi (by show 6144 + j.val = (i 0).val; rw [h1]; show 6144 + j.val = 2048 * 3 + j.val; omega)

/-! ## The joint pre-activation array, band by band -/

/-- The [4096, 8192] pre-activation array at row r, column 2048·g + j, is gate g's pre-activation of row r and column j. -/
theorem band_at (x0 x1 : S4096x2048.Idx → EReal) (x3 x4 x5 x6 x7 x8 x9 x10 : S2048x2048.Idx → EReal) (x11 x12 x13 x14 : S2048.Idx → EReal)
    (g : Fin 4) (r : Fin 4096) (j : Fin 2048) (i : S4096x8192.Idx) (h0 : (i 0).val = r.val) (h1 : (i 1).val = 2048 * g.val + j.val) :
    val_main_v8 (F := Ideal) x0 x1 x3 x4 x5 x6 x7 x8 x9 x10 x11 x12 x13 x14 i
      = preact (row x0 r) (row x1 r) (col (pick4 g x3 x4 x5 x6) j) (col (pick4 g x7 x8 x9 x10) j) (pick4 g x11 x12 x13 x14 (ix1 j)) := by
  rw [val_main_v8_apply, val_main_v5_apply, val_main_v3_apply, val_main_v4_apply, val_main_v7_apply, val_main_v6_apply]
  have er : ∀ k : Fin 2048, (lidx_main_v3 i k : S4096x2048.Idx) = ix2 r k := fun k => funext fun a => Fin.ext (by
    match a with
    | ⟨0, _⟩ => exact h0
    | ⟨1, _⟩ => rfl)
  have er' : ∀ k : Fin 2048, (lidx_main_v4 i k : S4096x2048.Idx) = ix2 r k := fun k => funext fun a => Fin.ext (by
    match a with
    | ⟨0, _⟩ => exact h0
    | ⟨1, _⟩ => rfl)
  have ex : ∀ k : Fin 2048, val_main_v0 (F := Ideal) x3 x4 x5 x6 (ridx_main_v3 i k) = pick4 g x3 x4 x5 x6 (ix2 k j) := fun k =>
    joined_cols x3 x4 x5 x6 _ g k j _ rfl h1
  have eh : ∀ k : Fin 2048, val_main_v1 (F := Ideal) x7 x8 x9 x10 (ridx_main_v4 i k) = pick4 g x7 x8 x9 x10 (ix2 k j) := fun k =>
    joined_cols x7 x8 x9 x10 _ g k j _ rfl h1
  have eb : val_main_v2 (F := Ideal) x11 x12 x13 x14 (idx_main_v6 (idx_main_v7 i)) = pick4 g x11 x12 x13 x14 (ix1 j) :=
    joined_entries x11 x12 x13 x14 _ g j _ h1
  rw [eb]
  simp only [er, er', ex, eh]
  rfl

/-! ## The sigmoid as the reference spells it -/

/-- `1 / (1 + e^(-t))` in the host's operations, with the word for one, is the logistic function. -/
theorem host_sigmoid (t : EReal) :
    FloatOps.hostDivf (F := Ideal) (φ := .f32) (FloatOps.ofBits .f32 0x3F800000#32)
      (FloatOps.addf (FloatOps.ofBits .f32 0x3F800000#32) (FloatOps.hostUnary .exp (FloatOps.hostNegf t))) = Ideal.logistic t :=
  Cert.LstmCell.logistic_spelt t

/-! ## The two results -/

/-- The reference's new cell state at (r, j): the forget band scales c, the input band gates the candidate band. -/
theorem ref_cstate (x0 x1 x2 : S4096x2048.Idx → EReal) (x3 x4 x5 x6 x7 x8 x9 x10 : S2048x2048.Idx → EReal) (x11 x12 x13 x14 : S2048.Idx → EReal) (r : Fin 4096) (j : Fin 2048) :
    val_main_v34 (F := Ideal) x0 x1 x2 x3 x4 x5 x6 x7 x8 x9 x10 x11 x12 x13 x14 (ix2 r j) = (Args.mk x0 x1 x2 x3 x4 x5 x6 x7 x8 x9 x10 x11 x12 x13 x14).newC r j := by
  simp only [val_main_v34_apply, val_main_v32_apply, val_main_v33_apply, val_main_v24_apply, val_main_v18_apply, val_main_v31_apply, val_main_v23_apply, val_main_v22_apply, val_main_v21_apply, val_main_v20_apply, val_main_v19_apply, val_main_v10_apply, val_main_v17_apply, val_main_v16_apply, val_main_v15_apply, val_main_v14_apply, val_main_v13_apply, val_main_v9_apply, val_main_v12_apply, val_main_cst_2_apply, val_main_cst_1_apply, val_main_cst_0_apply, val_main_cst_apply]
  simp only [host_sigmoid]
  rw [band_at x0 x1 x3 x4 x5 x6 x7 x8 x9 x10 x11 x12 x13 x14 1 r j (idx_main_v10 (ix2 r j)) rfl (by show 2048 + j.val = 2048 * 1 + j.val; omega),
    band_at x0 x1 x3 x4 x5 x6 x7 x8 x9 x10 x11 x12 x13 x14 0 r j (idx_main_v9 (ix2 r j)) rfl (by show j.val = 2048 * 0 + j.val; omega),
    band_at x0 x1 x3 x4 x5 x6 x7 x8 x9 x10 x11 x12 x13 x14 3 r j (idx_main_v12 (ix2 r j)) rfl (by show 6144 + j.val = 2048 * 3 + j.val; omega)]
  rfl

/-- The reference's new hidden state at (r, j): the output band gates tanh of the new cell state. -/
theorem ref_hstate (x0 x1 x2 : S4096x2048.Idx → EReal) (x3 x4 x5 x6 x7 x8 x9 x10 : S2048x2048.Idx → EReal) (x11 x12 x13 x14 : S2048.Idx → EReal) (r : Fin 4096) (j : Fin 2048) :
    val_main_v36 (F := Ideal) x0 x1 x2 x3 x4 x5 x6 x7 x8 x9 x10 x11 x12 x13 x14 (ix2 r j) = (Args.mk x0 x1 x2 x3 x4 x5 x6 x7 x8 x9 x10 x11 x12 x13 x14).newH r j := by
  simp only [val_main_v36_apply, val_main_v35_apply, val_main_v30_apply, val_main_v29_apply, val_main_v28_apply, val_main_v27_apply, val_main_v26_apply, val_main_v25_apply, val_main_v11_apply, val_main_cst_4_apply, val_main_cst_3_apply]
  simp only [host_sigmoid]
  rw [ref_cstate, band_at x0 x1 x3 x4 x5 x6 x7 x8 x9 x10 x11 x12 x13 x14 2 r j (idx_main_v11 (ix2 r j)) rfl (by show 4096 + j.val = 2048 * 2 + j.val; omega)]
  rfl

/-- The first result, with its unit middle axis. -/
theorem ref_outH (x0 x1 x2 : S4096x2048.Idx → EReal) (x3 x4 x5 x6 x7 x8 x9 x10 : S2048x2048.Idx → EReal) (x11 x12 x13 x14 : S2048.Idx → EReal) (i : S4096x1x2048.Idx) :
    val_main_v37 (F := Ideal) x0 x1 x2 x3 x4 x5 x6 x7 x8 x9 x10 x11 x12 x13 x14 i = (Args.mk x0 x1 x2 x3 x4 x5 x6 x7 x8 x9 x10 x11 x12 x13 x14).outH i := by
  rw [val_main_v37_apply]
  have e : (idx_main_v37 i : S4096x2048.Idx) = ix2 (n0 := 4096) (n1 := 2048) (i 0) (i 2) :=
    funext fun a => by match a with | ⟨0, _⟩ => rfl | ⟨1, _⟩ => rfl
  rw [e]
  exact ref_hstate x0 x1 x2 x3 x4 x5 x6 x7 x8 x9 x10 x11 x12 x13 x14 (i 0) (i 2)

/-- The second result, likewise. -/
theorem ref_outC (x0 x1 x2 : S4096x2048.Idx → EReal) (x3 x4 x5 x6 x7 x8 x9 x10 : S2048x2048.Idx → EReal) (x11 x12 x13 x14 : S2048.Idx → EReal) (i : S4096x1x2048.Idx) :
    val_main_v38 (F := Ideal) x0 x1 x2 x3 x4 x5 x6 x7 x8 x9 x10 x11 x12 x13 x14 i = (Args.mk x0 x1 x2 x3 x4 x5 x6 x7 x8 x9 x10 x11 x12 x13 x14).outC i := by
  rw [val_main_v38_apply]
  have e : (idx_main_v38 i : S4096x2048.Idx) = ix2 (n0 := 4096) (n1 := 2048) (i 0) (i 2) :=
    funext fun a => by match a with | ⟨0, _⟩ => rfl | ⟨1, _⟩ => rfl
  rw [e]
  exact ref_cstate x0 x1 x2 x3 x4 x5 x6 x7 x8 x9 x10 x11 x12 x13 x14 (i 0) (i 2)

/-! ## The run's two result terms -/

variable (m : (ℓ : Loc nD τ sig) → Buf (Elt Ideal) ℓ)

/-- The fifteen arguments as a device holds them at the launch. -/
def argsOf (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14)⟩

theorem result_h (c : Dev nD) : Cert.ReferenceIdeal.Value.res_main_v37 m c = (argsOf m c).outH := by
  rw [val_main_v37_eq]
  funext i
  exact ref_outH _ _ _ _ _ _ _ _ _ _ _ _ _ _ _ i

theorem result_c (c : Dev nD) : Cert.ReferenceIdeal.Value.res_main_v38 m c = (argsOf m c).outC := by
  rw [val_main_v38_eq]
  funext i
  exact ref_outC _ _ _ _ _ _ _ _ _ _ _ _ _ _ _ i

end Cert.ReferenceIdeal.CellValue

end
-- ==== Proof.lean ====
/-
  A fused Pallas LSTM cell step against its jnp reference, over the extended reals.

  Both programs compute, for every batch row r and hidden unit j,
      c'(r, j) = c[r,j] · σ(g_f) + σ(g_i) · tanh(g_c),      h'(r, j) = σ(g_o) · tanh(c'(r, j)),
  each gate's pre-activation being (Σ_k x[r,k] · Wx[k,j] + Σ_k h[r,k] · Wh[k,j]) + b[j] with the gate's own weights and
  bias (Proof/CellSpec.lean). The kernel forms the four gates tile by tile from eight separate matrix products on
  operands converted to bf16 — a change of format is the identity at the exact values, and a product into a zero
  accumulator is the plain sum — (Proof/TileCell.lean, Proof/KernelArrays.lean, Proof/KernelCell.lean, Proof/KernelRun.lean);
  the reference joins the weights into two wide matrices, forms one wide product and cuts it into four bands, and spells
  the sigmoid 1 / (1 + e^(-t)), which is the kernel's logistic function by definition (Proof/RefCell.lean). The sums on
  the two sides run over the same 2048 positions in the same grouping, so no law of arithmetic is needed and the
  precondition is never opened. The idealization rewrote nothing, so `preserves` is trivial.
-/
import proofs.«145141_j20315195310597_1_alg».proof.Defs
import proofs.«145141_j20315195310597_1_alg».proof.Proof.Gen.Kernel
import proofs.«145141_j20315195310597_1_alg».proof.Proof.Gen.Kernel.Frame
import proofs.«145141_j20315195310597_1_alg».proof.Proof.Gen.KernelIdeal
import proofs.«145141_j20315195310597_1_alg».proof.Proof.Gen.KernelIdeal.Frame
import proofs.«145141_j20315195310597_1_alg».proof.Proof.Gen.ReferenceIdeal
import proofs.«145141_j20315195310597_1_alg».proof.Proof.Gen.ReferenceIdeal.Run
import proofs.«145141_j20315195310597_1_alg».proof.Proof.Gen.Pre_finite_inputs
import proofs.«145141_j20315195310597_1_alg».proof.Proof.KernelRun
import proofs.«145141_j20315195310597_1_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Memories that agree on the fifteen arguments give the two programs the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.CellValue.argsOf m' c = Cert.KernelIdeal.CellValue.argsOf m c := by
  obtain ⟨h0, h1, h2, h3, h4, h5, h6, h7, h8, h9, h10, h11, h12, h13, h14⟩ := h
  unfold Cert.ReferenceIdeal.CellValue.argsOf Cert.KernelIdeal.CellValue.argsOf
  rw [h0, h1, h2, h3, h4, h5, h6, h7, h8, h9, h10, h11, h12, h13, h14]

/-- Both programs end with the LSTM cell of the (agreeing) arguments in their two results. -/
theorem algebraic : Cert.algebraic_KernelIdeal_ReferenceIdeal := by
  intro m ρ m' ρ' _ hagree
  refine ⟨fun c => (Cert.KernelIdeal.CellValue.argsOf m c).outH, fun c => (Cert.KernelIdeal.CellValue.argsOf m c).outC,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.CellValue.result_h, args_agree m m' c (hagree c)]
  · rw [Cert.ReferenceIdeal.CellValue.result_c, args_agree m m' c (hagree c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
